-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S16384x1024, .f32⟩
  | .hbm, ⟨12, _⟩ => ⟨S16384x1024, .f32⟩
  | .hbm, ⟨13, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .f32⟩
  | .local _ .vmem, ⟨5, _⟩ => ⟨S1024, .f32⟩
  | .local _ .vmem, ⟨6, _⟩ => ⟨S1024x1024, .f32⟩
  | .local _ .vmem, ⟨7, _⟩ => ⟨S1024, .f32⟩
  | .local _ .vmem, ⟨8, _⟩ => ⟨S1024x1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S256x1024, .f32⟩
  | .local _ .vmem, ⟨13, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4x4096x1024_S16384x1024 : S4x4096x1024.ShapeCasts S16384x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  shapeCasts_S16384x1024_S4x4096x1024 : S16384x1024.ShapeCasts S4x4096x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .f32 = 32 ∨ (Rect.block (s := S1024x1024) S1024x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S16384x1024.size a
  hwx0_11 : ∀ i : grid0.Coords, EltTy.bits .f32 = 32 ∨ (Rect.block (s := S16384x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x1024, .f32⟩
  | .hbm, ⟨62, _⟩ => ⟨S4x4096x1024, .f32⟩
  | .hbm, ⟨63, _⟩ => ⟨S1x1x1024, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  dot_S4x4096x1024_S1024x1024_S4x4096x1024_2_0_01_1_n_n_wf : DotDims.WF S4x4096x1024 S1024x1024 S4x4096x1024 [2] [0] [0, 1] [1] [] []

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.Spec.lean ====
/-
  The function both programs compute, one row at a time.

  A row `x` of 1024 numbers passes through a gated residual block followed by a layer normalisation over
  the row:
    hidden u   = max (∑ₖ x k · w1[k,u] + b1[u]) 0
    branch v   = ∑ᵤ hidden u · w2[u,v] + b2[v]
    gate v     = logistic (∑ₖ x k · wg[k,v] + bg[v])
    skip v     = ∑ₖ x k · ws[k,v] + bs[v]
    y v        = branch v · gate v + skip v
    μ          = (∑ᵥ y v) / 1024
    σ²         = (∑ᵥ (y v − μ)²) / 1024
    out v      = (y v − μ) · rsqrt (σ² + ε) · γ[v] + β[v]
  over the extended reals, every operation the exact one. Nothing here is rearranged between the two
  programs: both compute exactly this tree, so no algebraic law (and no finiteness) is needed; the float
  literals stay the bit patterns both programs print.
-/
import Idealize.ShloMosaic.PureOps.Ideal
import Idealize.ShloMosaic.PureOps.IdealRules
import Idealize.ShloMosaic.Lib.ValueIdx

noncomputable section

namespace Cert.Grn

open Idealize.ShloMosaic Idealize.ShloMosaic.ValueIdx

/-- A 1024 × 1024 weight matrix and a 1024-entry vector over the extended reals. -/
abbrev Mat : Type := (⟨2, ![1024, 1024]⟩ : Shape).Idx → EReal
abbrev Vc : Type := (⟨1, ![1024]⟩ : Shape).Idx → EReal
/-- A row of 1024 extended reals. -/
abbrev Row : Type := Fin 1024 → EReal

/-- The float zero, the row length 1024 and the normalisation's ε = f32(1e-3), as both programs print them. -/
abbrev zeroLit : EReal := Ideal.ofBits .f32 0x00000000#32
abbrev lenLit : EReal := Ideal.ofBits .f32 0x44800000#32
abbrev epsLit : EReal := Ideal.ofBits .f32 0x3A83126F#32
abbrev oneLit : EReal := Ideal.ofBits .f32 0x3F800000#32

/-- The pattern of the float one denotes the number one. -/
theorem oneLit_eq : oneLit = 1 := IdealRules.sign_bit.ideal_onePat .f32

/-- Column `u` of `W` against the row: `∑ₖ x k · W[k,u]`. -/
def rowDot (x : Row) (W : Mat) (u : Fin 1024) : EReal := ∑ k : Fin 1024, x k * W (ix2 k u)

/-- An affine map of the row: the dot with column `u`, plus the bias there. -/
def affine (x : Row) (W : Mat) (b : Vc) (u : Fin 1024) : EReal := rowDot x W u + b (ix1 u)

/-- The hidden layer: the first affine map, clipped below at zero. -/
def hidden (x : Row) (w1 : Mat) (b1 : Vc) : Row := fun u => max (affine x w1 b1 u) zeroLit

/-- The block before normalisation: the hidden branch times the gate, plus the skip projection. -/
def gated (x : Row) (w1 : Mat) (b1 : Vc) (w2 : Mat) (b2 : Vc) (wg : Mat) (bg : Vc) (ws : Mat) (bs : Vc) : Row :=
  fun v => affine (hidden x w1 b1) w2 b2 v * Ideal.logistic (affine x wg bg v) + affine x ws bs v

/-- The mean of a row: its sum over the row length. -/
def rowMean (y : Row) : EReal := Ideal.div (∑ k : Fin 1024, y k) lenLit

/-- The centred row. -/
def centred (y : Row) : Row := fun v => y v - rowMean y

/-- Layer normalisation of a row with scale `γ` and shift `β`. -/
def normed (y : Row) (γ β : Vc) : Row := fun v =>
  centred y v * Ideal.rsqrt (rowMean (fun k => centred y k * centred y k) + epsLit) * γ (ix1 v) + β (ix1 v)

/-- The whole block on one row. -/
def rowOut (x : Row) (w1 : Mat) (b1 : Vc) (w2 : Mat) (b2 : Vc) (wg : Mat) (bg : Vc) (ws : Mat) (bs : Vc) (γ β : Vc) : Row :=
  normed (gated x w1 b1 w2 b2 wg bg ws bs) γ β

/-- The logistic function written out with the float one: `1 / (1 + e^(−z))`. -/
theorem logistic_expanded (z : EReal) : Ideal.div oneLit (oneLit + Ideal.exp (-z)) = Ideal.logistic z := by
  rw [oneLit_eq]; rfl

/-- A sum started from the float zero is the sum. -/
theorem zeroLit_add (s : EReal) : zeroLit + s = s := by
  show Ideal.ofBits .f32 0x00000000#32 + s = s
  rw [show Ideal.ofBits .f32 0x00000000#32 = 0 by simp [Ideal.ofBits, Ideal.ieee], zero_add]

end Cert.Grn

end
-- ==== Proof.LibKeepdims.lean ====
/-
  Two layout readings that every row statistic kept as a column needs: a vector of `a` entries
  viewed as an `a × 1` column reads its entry `i` at `(i, 0)`, and an `a × 1` column broadcast to
  `a × b` reads, at `(p, c)`, the column's entry of row `p` — the column is repeated along the
  second axis. Both are stated over literal shapes with the indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` vector cast to an `[a, 1]` column reads, at `(i, u)`, the vector at `i`, whatever the unit
    coordinate `u`: both indices sit at row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`: the first axis is
    carried (or, when `a = 1`, is the unit axis read at `0`, which is `p`), the unit second axis is read at `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.KernelRow.lean ====
/-
  The kernel body's arithmetic read at one entry of its 256 × 1024 output block.

  The body forms four products of the input block with 1024 × 1024 weight matrices (each into a zero accumulator,
  so each entry is a plain sum over the contracted index), adds bias rows, clips the first at zero, applies the
  logistic function to the gate, and normalises each row of the result with two row sums kept as columns. Read
  at entry `(p, q)`, every step depends only on row `p` of the input block: the entry is the row function of the
  specification applied to that row, at `q`. Changes of float format are the identity over the extended reals.
-/
import proofs.«130909_j67027259621479_1_alg».proof.Proof.Gen.KernelIdeal.Skeleton
import proofs.«130909_j67027259621479_1_alg».proof.Proof.Spec
import proofs.«130909_j67027259621479_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Grn.KernelRow

open Idealize.ShloMosaic Idealize.ShloMosaic.ValueIdx Cert.KernelIdeal Cert.KernelIdeal.Gen Cert.Grn

/-! ## The matrix product read at an entry -/

/-- Along the product's row axis the left operand is read at the output's row. -/
theorem lhs_axis0 (i : S256x1024.Idx) (c : dot_S256x1024_S1024x1024_S256x1024_1_0_0_1_n_n.contr.Idx) :
    (dot_S256x1024_S1024x1024_S256x1024_1_0_0_1_n_n.lhsIdx i c 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl

/-- Along its contracted axis the left operand is read at the summation index. -/
theorem lhs_axis1 (i : S256x1024.Idx) (c : dot_S256x1024_S1024x1024_S256x1024_1_0_0_1_n_n.contr.Idx) :
    (dot_S256x1024_S1024x1024_S256x1024_1_0_0_1_n_n.lhsIdx i c 1).val = (c ⟨0, by decide⟩).val :=
  dot_S256x1024_S1024x1024_S256x1024_1_0_0_1_n_n.lhsIdx_val_of_single rfl i c

/-- Along its contracted axis the right operand is read at the summation index. -/
theorem rhs_axis0 (i : S256x1024.Idx) (c : dot_S256x1024_S1024x1024_S256x1024_1_0_0_1_n_n.contr.Idx) :
    (dot_S256x1024_S1024x1024_S256x1024_1_0_0_1_n_n.rhsIdx i c 0).val = (c ⟨0, by decide⟩).val :=
  dot_S256x1024_S1024x1024_S256x1024_1_0_0_1_n_n.rhsIdx_val_of_single rfl i c

/-- Along the product's column axis the right operand is read at the output's column. -/
theorem rhs_axis1 (i : S256x1024.Idx) (c : dot_S256x1024_S1024x1024_S256x1024_1_0_0_1_n_n.contr.Idx) :
    (dot_S256x1024_S1024x1024_S256x1024_1_0_0_1_n_n.rhsIdx i c 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256 × 1024 by 1024 × 1024 product accumulated into the zero block is, at entry `(p, q)`, the sum over `k` of
    the left operand's `(p, k)` times the right operand's `(k, q)`. -/
theorem matmul_at {φ₁ φ₂ : FTy} (A : FVec Ideal S256x1024 φ₁) (B : FVec Ideal S1024x1024 φ₂) (p : Fin 256) (q : Fin 1024) :
    matmul (F := Ideal) dot_S256x1024_S1024x1024_S256x1024_1_0_0_1_n_n none A B (constant (F := Ideal) S256x1024 .f32 0x00000000#32) (ix2 p q)
      = ∑ k : Fin 1024, A (ix2 p k) * B (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-! ## The layout readings -/

/-- A 1024-entry vector laid out as one row and repeated down the 256 rows reads, at `(p, q)`, its entry `q`. -/
theorem biasRow_at (v : Vec Ideal S1024 .f32) (p : Fin 256) (q : Fin 1024) :
    broadcastTo S256x1024 (shapeCast S1x1024 v shapeCasts_S1024_S1x1024) broadcasts_S1x1024_S256x1024 (ix2 p q) = v (ix1 q) :=
  (broadcastTo_1b_ab_apply _ broadcasts_S1x1024_S256x1024 p q).trans (shapeCast_a_1a_apply v shapeCasts_S1024_S1x1024 0 q)

/-- The sum of a 256 × 1024 block along its rows reads, at row `p`, the sum of that row's 1024 entries. -/
theorem laneSum_at (src : FVec Ideal S256x1024 .f32) (p : Fin 256) :
    multiReduction (F := Ideal) .add [1] S256 src 0x00000000#32 reduces_S256x1024_S256 (.inl rfl) rfl (ix1 p)
      = ∑ k : Fin 1024, src (ix2 p k) := by
  refine (Ideal.multiReduction_add_single src 0x00000000#32 reduces_S256x1024_S256 (.inl rfl) rfl (ix1 p)).trans ?_
  refine Finset.sum_congr rfl fun k _ => congrArg src (funext fun a => Fin.ext ?_)
  match a with
  | ⟨0, _⟩ => rfl
  | ⟨1, _⟩ => rfl

/-- A 256-entry vector of row statistics kept as a column reads, at `(p, 0)`, its entry `p`. -/
theorem column_at (v : FVec Ideal S256 .f32) (p : Fin 256) :
    shapeCast S256x1 v shapeCasts_S256_S256x1 (ix2 p (0 : Fin 1)) = v (ix1 p) :=
  Cert.LibKeepdims.shapeCast_a_a1_apply v shapeCasts_S256_S256x1 p 0

/-- A column of row statistics repeated along the 1024 columns reads, at `(p, q)`, the column's entry of row `p`. -/
theorem columnBroadcast_at (c : FVec Ideal S256x1 .f32) (p : Fin 256) (q : Fin 1024) :
    broadcastTo S256x1024 c broadcasts_S256x1_S256x1024 (ix2 p q) = c (ix2 p (0 : Fin 1)) :=
  Cert.LibKeepdims.broadcastTo_a1_ab_apply c broadcasts_S256x1_S256x1024 p q

/-! ## The payloads read at an entry -/

/-- The inverse square root and the logistic function act entry by entry. -/
theorem rsqrt_at {s : Shape} {φ : FTy} (v : FVec Ideal s φ) (i : s.Idx) : rsqrt v i = Ideal.rsqrt (v i) := rfl
theorem logistic_at {s : Shape} {φ : FTy} (v : FVec Ideal s φ) (i : s.Idx) : logistic v i = Ideal.logistic (v i) := rfl

/-- The block narrowed for the products is, over the extended reals, the block itself. -/
theorem pay2_at (x0 : Vec Ideal S256x1024 .f32) (i : S256x1024.Idx) : k0_pay2 (F := Ideal) x0 i = x0 i := by
  unfold k0_pay2
  show shapeCast S256x1024 x0 shapeCasts_S256x1024_S256x1024 i = x0 i
  rw [shapeCast_self]

/-- One affine layer: the product of a block with a narrowed weight matrix, plus the bias row, reads at `(p, q)`
    the affine map of the block's row `p` at `q`. -/
theorem affineLayer_at {φ₁ : FTy} (A : FVec Ideal S256x1024 φ₁) (W : Vec Ideal S1024x1024 .f32) (b : Vec Ideal S1024 .f32)
    (p : Fin 256) (q : Fin 1024) :
    addf (matmul (F := Ideal) dot_S256x1024_S1024x1024_S256x1024_1_0_0_1_n_n none A (truncf .bf16 W bitsLt_bf16_f32)
        (constant (F := Ideal) S256x1024 .f32 0x00000000#32))
      (broadcastTo S256x1024 (shapeCast S1x1024 b shapeCasts_S1024_S1x1024) broadcasts_S1x1024_S256x1024) (ix2 p q)
      = affine (fun k => A (ix2 p k)) W b q := by
  rw [addf_apply, matmul_at, biasRow_at]
  rfl

/-- The skip projection at `(p, q)`. -/
theorem pay3_at (x0 : Vec Ideal S256x1024 .f32) (ws : Vec Ideal S1024x1024 .f32) (bs : Vec Ideal S1024 .f32)
    (p : Fin 256) (q : Fin 1024) :
    k0_pay3 (F := Ideal) x0 ws bs (ix2 p q) = affine (fun k => x0 (ix2 p k)) ws bs q := by
  unfold k0_pay3
  rw [affineLayer_at]
  exact congrArg (fun r : Row => affine r ws bs q) (funext fun k => pay2_at x0 _)

/-- The hidden branch times the gate at `(p, q)`. -/
theorem pay4_at (x0 : Vec Ideal S256x1024 .f32) (w1 w2 wg : Vec Ideal S1024x1024 .f32) (b1 b2 bg : Vec Ideal S1024 .f32)
    (p : Fin 256) (q : Fin 1024) :
    k0_pay4 (F := Ideal) x0 w1 w2 wg b1 b2 bg (ix2 p q)
      = affine (hidden (fun k => x0 (ix2 p k)) w1 b1) w2 b2 q * Ideal.logistic (affine (fun k => x0 (ix2 p k)) wg bg q) := by
  unfold k0_pay4
  rw [mulf_apply, logistic_at, affineLayer_at, affineLayer_at]
  refine congrArg₂ (· * ·) (congrArg (fun r : Row => affine r w2 b2 q) (funext fun k => ?_))
    (congrArg (fun r : Row => Ideal.logistic (affine r wg bg q)) (funext fun k => pay2_at x0 _))
  rw [truncf_apply, maximumf_apply, affineLayer_at, broadcast_apply]
  exact congrArg (fun r : Row => max (affine r w1 b1 k) zeroLit) (funext fun k' => pay2_at x0 _)

/-- The sum of two blocks, normalised along each row and then scaled and shifted, at `(p, q)`. -/
theorem pay1_at (γ β : Vec Ideal S1024 .f32) (v36 v37 : FVec Ideal S256x1024 .f32) (p : Fin 256) (q : Fin 1024) :
    k0_pay1 (F := Ideal) γ β v36 v37 (ix2 p q) = normed (fun k => v37 (ix2 p k) + v36 (ix2 p k)) γ β q := by
  unfold k0_pay1
  -- the pointwise operations and the two kept-column forms, down to the two row sums and the two parameter rows
  simp only [addf_apply, mulf_apply, subf_apply, divf_apply, rsqrt_at, broadcast_apply, columnBroadcast_at, column_at]
  rw [biasRow_at, biasRow_at, laneSum_at, laneSum_at]
  -- inside the sum of squares the centred entries are read the same way, and the mean there is the first row sum
  simp only [addf_apply, mulf_apply, subf_apply, divf_apply, broadcast_apply, columnBroadcast_at, column_at]
  rw [laneSum_at]
  simp only [addf_apply]
  rfl

/-- The kernel body's stored value at row `p`, column `q` of its 256 × 1024 block is the block's row `p`
    sent through the whole gated block and the normalisation, read at `q`. -/
theorem payload_at (x0 : Vec Ideal S256x1024 .f32) (x1 : Vec Ideal S1024x1024 .f32) (x2 : Vec Ideal S1024 .f32)
    (x3 : Vec Ideal S1024x1024 .f32) (x4 : Vec Ideal S1024 .f32) (x5 : Vec Ideal S1024x1024 .f32) (x6 : Vec Ideal S1024 .f32)
    (x7 : Vec Ideal S1024x1024 .f32) (x8 : Vec Ideal S1024 .f32) (x9 : Vec Ideal S1024 .f32) (x10 : Vec Ideal S1024 .f32)
    (p : Fin 256) (q : Fin 1024) :
    k0_pay1 (F := Ideal) x9 x10 (k0_pay3 (F := Ideal) x0 x7 x8) (k0_pay4 (F := Ideal) x0 x1 x3 x5 x2 x4 x6) (ix2 p q)
      = rowOut (fun k => x0 (ix2 p k)) x1 x2 x3 x4 x5 x6 x7 x8 x9 x10 q := by
  rw [pay1_at]
  unfold rowOut
  exact congrArg (fun y : Row => normed y x9 x10 q) (funext fun k => by
    show k0_pay4 (F := Ideal) x0 x1 x3 x5 x2 x4 x6 (ix2 p k) + k0_pay3 (F := Ideal) x0 x7 x8 (ix2 p k) = _
    rw [pay4_at, pay3_at]
    rfl)

end Cert.Grn.KernelRow

end
-- ==== Proof.KernelValue.lean ====
/-
  What the kernel program's result array holds after its run, as one function of the argument arrays.

  The program flattens the [4, 4096, 1024] input to [16384, 1024], runs the kernel over 64 grid points, and
  unflattens the [16384, 1024] output. Point `t` reads rows `256 t … 256 t + 255` of the flattened input and the
  whole of every weight, bias, scale and shift array, and writes rows `256 t … 256 t + 255` of the output: each
  output row is the corresponding input row sent through the gated block and the layer normalisation. The 64 row
  blocks tile the output, so the output array is that row function applied to every row (`G2`); flattening and
  unflattening keep the row-major position, so row `4096 b + s` of the flattened arrays is row `(b, s)` of the
  original ones, and the result is the row function applied to every row `(b, s)` of the input (`G3`).
-/
import proofs.«130909_j67027259621479_1_alg».proof.Proof.Gen.KernelIdeal.Frame
import proofs.«130909_j67027259621479_1_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Grn.KernelValue

open Cert.KernelIdeal Cert.KernelIdeal.Gen Cert.Grn

variable (m : (ℓ : Loc nD τ sig) → Buf (Elt Ideal) ℓ) (ρ : Dev nD → PrngReg)

/-- The all-zero offsets of a whole-block access, at rank 2 and at rank 1. -/
theorem hz2 : (![0, 0] : Fin 2 → Nat) = fun _ => 0 := funext fun a => by fin_cases a <;> rfl
theorem hz1 : (![0] : Fin 1 → Nat) = fun _ => 0 := funext fun a => by fin_cases a <;> rfl

/-- The body's one store writes the whole output block, and every load reads a whole input block: what the
    body leaves in the output's buffer is its arithmetic of the input blocks. -/
theorem out_eq (x0 : Vec Ideal S256x1024 .f32) (x1 : Vec Ideal S1024x1024 .f32) (x2 : Vec Ideal S1024 .f32)
    (x3 : Vec Ideal S1024x1024 .f32) (x4 : Vec Ideal S1024 .f32) (x5 : Vec Ideal S1024x1024 .f32) (x6 : Vec Ideal S1024 .f32)
    (x7 : Vec Ideal S1024x1024 .f32) (x8 : Vec Ideal S1024 .f32) (x9 : Vec Ideal S1024 .f32) (x10 : Vec Ideal S1024 .f32) :
    out0_11 (F := Ideal) x0 x1 x2 x3 x4 x5 x6 x7 x8 x9 x10
      = k0_pay1 (F := Ideal) x9 x10 (k0_pay3 (F := Ideal) x0 x7 x8) (k0_pay4 (F := Ideal) x0 x1 x3 x5 x2 x4 x6) := by
  unfold out0_11
  rw [View.canon_unit_zero hz2]
  simp only [View.ld_unit_zero (S := S256x1024) hz2, View.ld_unit_zero (S := S1024x1024) hz2, View.ld_unit_zero (S := S1024) hz1]

/-- The printed index maps over the 64 grid points: the input block and the output block of point `t` are row
    block `t`; every weight, bias, scale and shift window is its whole array at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 1) = 0
    ∧ win0_10.index t (0 : Fin 1) = 0
    ∧ win0_11.index t (0 : Fin 2) = t.val ∧ win0_11.index t (1 : Fin 2) = 0 :=
  (by decide +kernel : ∀ t : Fin grid0.N, _)

/-- The input block of point `t` at `(p, k)` is the [16384, 1024] array at row `256 t + p`, column `k`. -/
theorem xblk_apply (c : Dev nD) (t : Fin cfg0.N) (p : Fin 256) (k : Fin 1024) (r : Fin 16384) (hr : r.val = 256 * t.val + p.val) :
    (iblk m c 0 t : Vec Ideal S256x1024 .f32) (ix2 p k) = (V m c main_v0 : S16384x1024.Idx → EReal) (ix2 r k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 256 + 1 * p.val = r.val; omega
  | ⟨1, _⟩ => show win0_0.index t (1 : Fin 2) * 1024 + 1 * k.val = k.val; omega

/-- The window of the first hidden projection's weights is the whole array at every point. -/
theorem blk1_eq (c : Dev nD) (t : Fin cfg0.N) : (iblk m c 1 t : Vec Ideal S1024x1024 .f32) = (V m c main_arg1 : S1024x1024.Idx → EReal) := by
  obtain ⟨e00, e01, e10, e11, e20, e30, e31, e40, e50, e51, e60, e70, e71, e80, e90, e100, e110, e111⟩ := idx_facts t
  funext y
  unfold iblk
  rw [View.read_apply]
  show V m c main_arg1 _ = V m c main_arg1 _
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The window of the second hidden projection's weights is the whole array at every point. -/
theorem blk3_eq (c : Dev nD) (t : Fin cfg0.N) : (iblk m c 3 t : Vec Ideal S1024x1024 .f32) = (V m c main_arg3 : S1024x1024.Idx → EReal) := by
  obtain ⟨e00, e01, e10, e11, e20, e30, e31, e40, e50, e51, e60, e70, e71, e80, e90, e100, e110, e111⟩ := idx_facts t
  funext y
  unfold iblk
  rw [View.read_apply]
  show V m c main_arg3 _ = V m c main_arg3 _
  congr 1
  funext a
  apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- The window of the gate's weights is the whole array at every point. -/
theorem blk5_eq (c : Dev nD) (t : Fin cfg0.N) : (iblk m c 5 t : Vec Ideal S1024x1024 .f32) = (V m c main_arg5 : S1024x1024.Idx → EReal) := by
  obtain ⟨e00, e01, e10, e11, e20, e30, e31, e40, e50, e51, e60, e70, e71, e80, e90, e100, e110, e111⟩ := idx_facts t
  funext y
  unfold iblk
  rw [View.read_apply]
  show V m c main_arg5 _ = V m c main_arg5 _
  congr 1
  funext a
  apply Fin.ext
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- The window of the skip projection's weights is the whole array at every point. -/
theorem blk7_eq (c : Dev nD) (t : Fin cfg0.N) : (iblk m c 7 t : Vec Ideal S1024x1024 .f32) = (V m c main_arg7 : S1024x1024.Idx → EReal) := by
  obtain ⟨e00, e01, e10, e11, e20, e30, e31, e40, e50, e51, e60, e70, e71, e80, e90, e100, e110, e111⟩ := idx_facts t
  funext y
  unfold iblk
  rw [View.read_apply]
  show V m c main_arg7 _ = V m c main_arg7 _
  congr 1
  funext a
  apply Fin.ext
  match a with
  | ⟨0, _⟩ => show win0_7.index t (0 : Fin 2) * 1024 + 1 * (y 0).val = (y 0).val; omega
  | ⟨1, _⟩ => show win0_7.index t (1 : Fin 2) * 1024 + 1 * (y 1).val = (y 1).val; omega

/-- The window of the first hidden projection's bias is the whole vector at every point. -/
theorem blk2_eq (c : Dev nD) (t : Fin cfg0.N) : (iblk m c 2 t : Vec Ideal S1024 .f32) = (V m c main_arg2 : S1024.Idx → EReal) := by
  obtain ⟨e00, e01, e10, e11, e20, e30, e31, e40, e50, e51, e60, e70, e71, e80, e90, e100, e110, e111⟩ := idx_facts t
  funext y
  unfold iblk
  rw [View.read_apply]
  show V m c main_arg2 _ = V m c main_arg2 _
  congr 1
  funext a
  apply Fin.ext
  match a with
  | ⟨0, _⟩ => show win0_2.index t (0 : Fin 1) * 1024 + 1 * (y 0).val = (y 0).val; omega

/-- The window of the second hidden projection's bias is the whole vector at every point. -/
theorem blk4_eq (c : Dev nD) (t : Fin cfg0.N) : (iblk m c 4 t : Vec Ideal S1024 .f32) = (V m c main_arg4 : S1024.Idx → EReal) := by
  obtain ⟨e00, e01, e10, e11, e20, e30, e31, e40, e50, e51, e60, e70, e71, e80, e90, e100, e110, e111⟩ := idx_facts t
  funext y
  unfold iblk
  rw [View.read_apply]
  show V m c main_arg4 _ = V m c main_arg4 _
  congr 1
  funext a
  apply Fin.ext
  match a with
  | ⟨0, _⟩ => show win0_4.index t (0 : Fin 1) * 1024 + 1 * (y 0).val = (y 0).val; omega

/-- The window of the gate's bias is the whole vector at every point. -/
theorem blk6_eq (c : Dev nD) (t : Fin cfg0.N) : (iblk m c 6 t : Vec Ideal S1024 .f32) = (V m c main_arg6 : S1024.Idx → EReal) := by
  obtain ⟨e00, e01, e10, e11, e20, e30, e31, e40, e50, e51, e60, e70, e71, e80, e90, e100, e110, e111⟩ := idx_facts t
  funext y
  unfold iblk
  rw [View.read_apply]
  show V m c main_arg6 _ = V m c main_arg6 _
  congr 1
  funext a
  apply Fin.ext
  match a with
  | ⟨0, _⟩ => show win0_6.index t (0 : Fin 1) * 1024 + 1 * (y 0).val = (y 0).val; omega

/-- The window of the skip projection's bias is the whole vector at every point. -/
theorem blk8_eq (c : Dev nD) (t : Fin cfg0.N) : (iblk m c 8 t : Vec Ideal S1024 .f32) = (V m c main_arg8 : S1024.Idx → EReal) := by
  obtain ⟨e00, e01, e10, e11, e20, e30, e31, e40, e50, e51, e60, e70, e71, e80, e90, e100, e110, e111⟩ := idx_facts t
  funext y
  unfold iblk
  rw [View.read_apply]
  show V m c main_arg8 _ = V m c main_arg8 _
  congr 1
  funext a
  apply Fin.ext
  match a with
  | ⟨0, _⟩ => show win0_8.index t (0 : Fin 1) * 1024 + 1 * (y 0).val = (y 0).val; omega

/-- The window of the normalisation's scale is the whole vector at every point. -/
theorem blk9_eq (c : Dev nD) (t : Fin cfg0.N) : (iblk m c 9 t : Vec Ideal S1024 .f32) = (V m c main_arg9 : S1024.Idx → EReal) := by
  obtain ⟨e00, e01, e10, e11, e20, e30, e31, e40, e50, e51, e60, e70, e71, e80, e90, e100, e110, e111⟩ := idx_facts t
  funext y
  unfold iblk
  rw [View.read_apply]
  show V m c main_arg9 _ = V m c main_arg9 _
  congr 1
  funext a
  apply Fin.ext
  match a with
  | ⟨0, _⟩ => show win0_9.index t (0 : Fin 1) * 1024 + 1 * (y 0).val = (y 0).val; omega

/-- The window of the normalisation's shift is the whole vector at every point. -/
theorem blk10_eq (c : Dev nD) (t : Fin cfg0.N) : (iblk m c 10 t : Vec Ideal S1024 .f32) = (V m c main_arg10 : S1024.Idx → EReal) := by
  obtain ⟨e00, e01, e10, e11, e20, e30, e31, e40, e50, e51, e60, e70, e71, e80, e90, e100, e110, e111⟩ := idx_facts t
  funext y
  unfold iblk
  rw [View.read_apply]
  show V m c main_arg10 _ = V m c main_arg10 _
  congr 1
  funext a
  apply Fin.ext
  match a with
  | ⟨0, _⟩ => show win0_10.index t (0 : Fin 1) * 1024 + 1 * (y 0).val = (y 0).val; omega

/-- What the kernel's [16384, 1024] output array ends holding: row `r` of the flattened input sent through the
    block, all arrays as the region finds them. -/
def G2 (c : Dev nD) : S16384x1024.Idx → EReal := fun i =>
  rowOut (fun k => (V m c main_v0 : S16384x1024.Idx → EReal) (ix2 (i 0) k))
    (V m c main_arg1) (V m c main_arg2) (V m c main_arg3) (V m c main_arg4) (V m c main_arg5) (V m c main_arg6)
    (V m c main_arg7) (V m c main_arg8) (V m c main_arg9) (V m c main_arg10) (i 1)

/-- What point `t` writes back is row block `t` of `G2`. -/
theorem flushed_eq (c : Dev nD) (t : Fin cfg0.N) :
    (dats m 0 c).flushed 11 t = ((cfg0.win 11).blk t).view.read (Elt Ideal) (G2 m c) := by
  show (cfg0.win 11).cut (grid0.coords t) ((dats m 0 c).after 11 t) = _
  rw [after0_11, out_eq]
  obtain ⟨e00, e01, e10, e11, e20, e30, e31, e40, e50, e51, e60, e70, e71, e80, e90, e100, e110, e111⟩ := idx_facts t
  funext j
  obtain ⟨p, q, rfl⟩ : ∃ (p : Fin 256) (q : Fin 1024), j = ix2 p q := ⟨j 0, j 1, eq_ix2 j⟩
  show k0_pay1 (F := Ideal) (iblk m c 9 t) (iblk m c 10 t) (k0_pay3 (F := Ideal) (iblk m c 0 t) (iblk m c 7 t) (iblk m c 8 t))
        (k0_pay4 (F := Ideal) (iblk m c 0 t) (iblk m c 1 t) (iblk m c 3 t) (iblk m c 5 t) (iblk m c 2 t) (iblk m c 4 t) (iblk m c 6 t)) (ix2 p q)
      = G2 m c (((cfg0.win 11).blk t).view.emb (ix2 p q))
  refine (KernelRow.payload_at (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  rw [blk1_eq, blk2_eq, blk3_eq, blk4_eq, blk5_eq, blk6_eq, blk7_eq, blk8_eq, blk9_eq, blk10_eq]
  unfold G2
  have hq : (((cfg0.win 11).blk t).view.emb (ix2 p q) 1 : Fin 1024) = q := Fin.ext (by
    show win0_11.index t (1 : Fin 2) * 1024 + 1 * q.val = q.val; omega)
  have hrow : (fun k : Fin 1024 => (iblk m c 0 t : Vec Ideal S256x1024 .f32) (ix2 p k))
      = fun k => (V m c main_v0 : S16384x1024.Idx → EReal) (ix2 (((cfg0.win 11).blk t).view.emb (ix2 p q) 0) k) :=
    funext fun k => xblk_apply m c t p k _ (by
      show win0_11.index t (0 : Fin 2) * 256 + 1 * p.val = 256 * t.val + p.val; omega)
  rw [hq, hrow]

/-- An index of the output array is in point `t`'s block iff its row is among rows `256 t … 256 t + 255`. -/
theorem mem_blk (t : Fin cfg0.N) (i : S16384x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v1).slice (win0_11.rect t)).set ↔ _
  rw [View.set_slice_whole, Rect.mem_set_unit]
  exact Iff.rfl

/-- Every row of the output array lies in the block of the point `row / 256`, which writes back. -/
theorem covered (i : S16384x1024.Idx) :
    ∃ t : Fin cfg0.N, (cfg0.win 11).flush t = true ∧ i ∈ ((cfg0.win 11).blk t).view.set := by
  have hi0 : (i 0).val < 16384 := (i 0).isLt
  have hi1 : (i 1).val < 1024 := (i 1).isLt
  have hN : cfg0.N = 64 := N_0
  let t : Fin cfg0.N := ⟨(i 0).val / 256, by rw [hN]; omega⟩
  obtain ⟨e00, e01, e10, e11, e20, e30, e31, e40, e50, e51, e60, e70, e71, e80, e90, e100, e110, e111⟩ := idx_facts t
  have ht : t.val = (i 0).val / 256 := rfl
  refine ⟨t, flush0_11 t, ?_⟩
  rw [mem_blk]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- After the region the output array holds `G2`. -/
theorem final (c : Dev nD) : (dats m 0 c).arrAt 11 cfg0.N = G2 m c :=
  (dats m 0 c).arrAt_eq_of_cover 11 (G2 m c) (fun t _ => flushed_eq m c t) covered

/-- The region finds the input flattened to [16384, 1024]: the host reshape before it. -/
theorem V_flat (c : Dev nD) :
    (V m c main_v0 : S16384x1024.Idx → EReal)
      = shapeCast S16384x1024 (m ((c : Thread nD τ).loc main_arg0) : S4x4096x1024.Idx → EReal) shapeCasts_S4x4096x1024_S16384x1024 := by
  show StableHlo.after hostOps0 (fun b => m (c, b)) (Proc.devRef .tc main_v0) = _
  after_results
  rfl

/-- After the host reshape that follows the region, the result buffer holds `G2` unflattened. -/
theorem tail_eq (c : Dev nD) :
    Pipeline.afterTail₀ cfgs (dats m) 0 (V0 m) [hostOps1] c main_v2
      = shapeCast S4x4096x1024 (G2 m c) shapeCasts_S16384x1024_S4x4096x1024 := by
  unfold Pipeline.afterTail₀
  show StableHlo.after hostOps1 _ (Proc.devRef .tc main_v2) = _
  after_results
  have h : Pipeline.withArrays (cfgs 0).spec c (V0 m c) (fun w => (dats m 0 c).arrAt w (cfgs 0).N) (Proc.devRef .tc main_v1)
      = G2 m c :=
    (Pipeline.withArrays_arr spec0 launch0.win.arr_inj c _ _ 11).trans (final m c)
  rw [h]
  rfl

/-- Flattening [4, 4096, 1024] to [16384, 1024] puts `(b, s, k)` at row `4096 b + s`, column `k`. -/
theorem flat_apply (X : S4x4096x1024.Idx → EReal) (b : Fin 4) (s : Fin 4096) (k : Fin 1024) (r : Fin 16384)
    (hr : r.val = b.val * 4096 + s.val) :
    shapeCast S16384x1024 X shapeCasts_S4x4096x1024_S16384x1024 (ix2 r k) = X (ix3 b s k) :=
  shapeCast_apply X _ (ix2 r k) (ix3 b s k) (by
    rw [Shape.rowMajor_val_three, Shape.rowMajor_val_two]
    show (b.val * 4096 + s.val) * 1024 + k.val = r.val * 1024 + k.val
    rw [hr])

/-- Unflattening reads `(b, s, q)` at row `4096 b + s`, column `q`. -/
theorem unflat_apply (Y : S16384x1024.Idx → EReal) (b : Fin 4) (s : Fin 4096) (q : Fin 1024) (r : Fin 16384)
    (hr : r.val = b.val * 4096 + s.val) :
    shapeCast S4x4096x1024 Y shapeCasts_S16384x1024_S4x4096x1024 (ix3 b s q) = Y (ix2 r q) :=
  shapeCast_apply Y _ (ix3 b s q) (ix2 r q) (by
    rw [Shape.rowMajor_val_three, Shape.rowMajor_val_two]
    show r.val * 1024 + q.val = (b.val * 4096 + s.val) * 1024 + q.val
    rw [hr])

/-- The kernel's result as one function of the argument arrays: row `(b, s)` of the input through the block. -/
def G3 (c : Dev nD) : S4x4096x1024.Idx → EReal := fun i =>
  rowOut (fun k => (m ((c : Thread nD τ).loc main_arg0) : S4x4096x1024.Idx → EReal) (ix3 (i 0) (i 1) k))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (i 2)

/-- Unflattening `G2` gives `G3`: the flattening before the region and the unflattening after it cancel row by row. -/
theorem result_eq (c : Dev nD) : shapeCast S4x4096x1024 (G2 m c) shapeCasts_S16384x1024_S4x4096x1024 = G3 m c := by
  funext i
  obtain ⟨b, s, q, rfl⟩ : ∃ (b : Fin 4) (s : Fin 4096) (q : Fin 1024), i = ix3 b s q := ⟨i 0, i 1, i 2, eq_ix3 i⟩
  have hlt : b.val * 4096 + s.val < 16384 := by have := b.isLt; have := s.isLt; omega
  rw [unflat_apply (G2 m c) b s q ⟨b.val * 4096 + s.val, hlt⟩ rfl]
  unfold G2 G3
  rw [V_flat, V_main_arg1, V_main_arg2, V_main_arg3, V_main_arg4, V_main_arg5, V_main_arg6, V_main_arg7, V_main_arg8,
    V_main_arg9, V_main_arg10]
  have hrow : (fun k : Fin 1024 => shapeCast S16384x1024 (m ((c : Thread nD τ).loc main_arg0) : S4x4096x1024.Idx → EReal)
        shapeCasts_S4x4096x1024_S16384x1024 (ix2 (⟨b.val * 4096 + s.val, hlt⟩ : Fin 16384) k))
      = fun k => (m ((c : Thread nD τ).loc main_arg0) : S4x4096x1024.Idx → EReal) (ix3 b s k) :=
    funext fun k => flat_apply _ b s k _ rfl
  show rowOut (fun k : Fin 1024 => shapeCast S16384x1024 (m ((c : Thread nD τ).loc main_arg0) : S4x4096x1024.Idx → EReal)
        shapeCasts_S4x4096x1024_S16384x1024 (ix2 (⟨b.val * 4096 + s.val, hlt⟩ : Fin 16384) k)) _ _ _ _ _ _ _ _ _ _ q
      = rowOut (fun k => (m ((c : Thread nD τ).loc main_arg0) : S4x4096x1024.Idx → EReal) (ix3 b s k)) _ _ _ _ _ _ _ _ _ _ q
  rw [hrow]

/-- Every weakly fair execution of the kernel program terminates with the result array holding `G3` of the argument
    arrays — at `(b, s, q)`, row `(b, s)` of the input through the gated block and the normalisation, read at `q` —
    and with every argument array unchanged. -/
theorem run : θ_run defs (onTc (τ := τ) (main (F := Ideal))) ⟨m, fun _ => 0, ρ⟩ fun r => ∀ c : Dev nD,
      r.2.mem ((c.tc : Thread nD τ).loc main_v2) = G3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v2 (Pipeline.mem_restRefs_of main_v2 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.Grn.KernelValue

end
-- ==== Proof.RefRow.lean ====
/-
  The reference program's result read at one index `(b, s, q)`.

  The reference contracts the last axis of the [4, 4096, 1024] input with each weight matrix, so every stage at
  `(b, s, q)` depends only on row `(b, s)` of the input; its sums start from the float zero, its gate is spelt
  `1 / (1 + e^(−z))`, and its row statistics are kept with a unit last axis. Stage by stage the result is the row
  function of the specification applied to row `(b, s)`, at `q`.
-/
import proofs.«130909_j67027259621479_1_alg».proof.Proof.Gen.ReferenceIdeal.Read
import proofs.«130909_j67027259621479_1_alg».proof.Proof.Spec
import Idealize.ShloMosaic.Lib.ValueIdx
import Idealize.ShloMosaic.Lib.Pipeline.Value
import Idealize.ShloMosaic.PureOps.Ideal.Laws

noncomputable section

namespace Cert.Grn.RefRow

open Idealize.ShloMosaic Idealize.ShloMosaic.ValueIdx Cert.ReferenceIdeal Cert.ReferenceIdeal.Read Cert.Grn

/-- The reference's three kinds of argument: the input, a weight matrix, a vector. -/
abbrev Arr3 : Type := (⟨S4x4096x1024, .f32⟩ : BufTy).Contents (Elt Ideal)
abbrev ArrM : Type := (⟨S1024x1024, .f32⟩ : BufTy).Contents (Elt Ideal)
abbrev ArrV : Type := (⟨S1024, .f32⟩ : BufTy).Contents (Elt Ideal)

/-- Row `(b, s)` of the input. -/
abbrev row (x0 : Arr3) (b : Fin 4) (s : Fin 4096) : Row := fun k => x0 (ix3 b s k)

/-! ## The index maps of the reference's operations, by coordinates -/

section Indices
variable (i : S4x4096x1024.Idx) (k : Fin 1024)

/-- A contraction reads its left operand at `(b, s, k)` … -/
theorem lidx0 : lidx_main_v0 i k = ix3 (i 0) (i 1) k := by
  funext a; match a with | ⟨0, _⟩ => rfl | ⟨1, _⟩ => rfl | ⟨2, _⟩ => rfl
theorem lidx9 : lidx_main_v9 i k = ix3 (i 0) (i 1) k := by
  funext a; match a with | ⟨0, _⟩ => rfl | ⟨1, _⟩ => rfl | ⟨2, _⟩ => rfl
theorem lidx19 : lidx_main_v19 i k = ix3 (i 0) (i 1) k := by
  funext a; match a with | ⟨0, _⟩ => rfl | ⟨1, _⟩ => rfl | ⟨2, _⟩ => rfl
/-- … and its right operand at `(k, q)`. -/
theorem ridx0 : ridx_main_v0 i k = ix2 k (i 2) := by
  funext a; match a with | ⟨0, _⟩ => rfl | ⟨1, _⟩ => rfl
theorem ridx5 : ridx_main_v5 i k = ix2 k (i 2) := by
  funext a; match a with | ⟨0, _⟩ => rfl | ⟨1, _⟩ => rfl
theorem ridx9 : ridx_main_v9 i k = ix2 k (i 2) := by
  funext a; match a with | ⟨0, _⟩ => rfl | ⟨1, _⟩ => rfl
theorem ridx19 : ridx_main_v19 i k = ix2 k (i 2) := by
  funext a; match a with | ⟨0, _⟩ => rfl | ⟨1, _⟩ => rfl
/-- A vector broadcast along the rows is read at `q`. -/
theorem bidx2 : idx_main_v1 (idx_main_v2 i) = ix1 (i 2) := by
  funext a; match a with | ⟨0, _⟩ => rfl
theorem bidx7 : idx_main_v6 (idx_main_v7 i) = ix1 (i 2) := by
  funext a; match a with | ⟨0, _⟩ => rfl
theorem bidx11 : idx_main_v10 (idx_main_v11 i) = ix1 (i 2) := by
  funext a; match a with | ⟨0, _⟩ => rfl
theorem bidx21 : idx_main_v20 (idx_main_v21 i) = ix1 (i 2) := by
  funext a; match a with | ⟨0, _⟩ => rfl
theorem bidx44 : idx_main_v43 (idx_main_v44 i) = ix1 (i 2) := by
  funext a; match a with | ⟨0, _⟩ => rfl
theorem bidx47 : idx_main_v46 (idx_main_v47 i) = ix1 (i 2) := by
  funext a; match a with | ⟨0, _⟩ => rfl

end Indices

/-! ## The stages, one at a time -/

section Stages
variable (x0 : Arr3) (x1 x3 x5 x7 : ArrM) (x2 x4 x6 x8 x9 x10 : ArrV)

/-- The first projection with its bias is the affine map of the row. -/
theorem affine1_at (i : S4x4096x1024.Idx) :
    val_main_v3 (F := Ideal) x0 x1 x2 i = affine (row x0 (i 0) (i 1)) x1 x2 (i 2) := by
  rw [val_main_v3_apply, val_main_v0_apply, val_main_v2_apply, val_main_v1_apply, bidx2]
  unfold affine rowDot
  exact congrArg (· + x2 (ix1 (i 2))) (Finset.sum_congr rfl fun k _ => by rw [lidx0, ridx0]; rfl)

/-- The gate's projection likewise … -/
theorem affineG_at (i : S4x4096x1024.Idx) :
    val_main_v12 (F := Ideal) x0 x5 x6 i = affine (row x0 (i 0) (i 1)) x5 x6 (i 2) := by
  rw [val_main_v12_apply, val_main_v9_apply, val_main_v11_apply, val_main_v10_apply, bidx11]
  unfold affine rowDot
  exact congrArg (· + x6 (ix1 (i 2))) (Finset.sum_congr rfl fun k _ => by rw [lidx9, ridx9]; rfl)

/-- … and the skip projection. -/
theorem affineS_at (i : S4x4096x1024.Idx) :
    val_main_v22 (F := Ideal) x0 x7 x8 i = affine (row x0 (i 0) (i 1)) x7 x8 (i 2) := by
  rw [val_main_v22_apply, val_main_v19_apply, val_main_v21_apply, val_main_v20_apply, bidx21]
  unfold affine rowDot
  exact congrArg (· + x8 (ix1 (i 2))) (Finset.sum_congr rfl fun k _ => by rw [lidx19, ridx19]; rfl)

/-- The hidden layer: the first affine map clipped at the float zero. -/
theorem hidden_at (i : S4x4096x1024.Idx) :
    val_main_v4 (F := Ideal) x0 x1 x2 i = hidden (row x0 (i 0) (i 1)) x1 x2 (i 2) := by
  rw [val_main_v4_apply, affine1_at, val_main_call0_v0_apply, val_main_call0_cst_apply]
  rfl

/-- The second projection reads the hidden layer of the same row: the branch before gating. -/
theorem branch_at (i : S4x4096x1024.Idx) :
    val_main_v8 (F := Ideal) x0 x1 x2 x3 x4 i = affine (hidden (row x0 (i 0) (i 1)) x1 x2) x3 x4 (i 2) := by
  rw [val_main_v8_apply, val_main_v5_apply, val_main_v7_apply, val_main_v6_apply, bidx7]
  unfold affine rowDot
  exact congrArg (· + x4 (ix1 (i 2))) (Finset.sum_congr rfl fun k _ => by
    rw [hidden_at, ridx5]; rfl)

/-- The gate, printed as `1 / (1 + e^(−z))`, is the logistic function of its projection. -/
theorem gate_at (i : S4x4096x1024.Idx) :
    val_main_v18 (F := Ideal) x0 x5 x6 i = Ideal.logistic (affine (row x0 (i 0) (i 1)) x5 x6 (i 2)) := by
  rw [val_main_v18_apply, val_main_v17_apply, val_main_cst_0_apply, val_main_v16_apply, val_main_v15_apply,
    val_main_cst_apply, val_main_v14_apply, val_main_v13_apply, affineG_at]
  exact logistic_expanded _

/-- The block before normalisation. -/
theorem gated_at (i : S4x4096x1024.Idx) :
    val_main_v24 (F := Ideal) x0 x1 x2 x3 x4 x5 x6 x7 x8 i
      = gated (row x0 (i 0) (i 1)) x1 x2 x3 x4 x5 x6 x7 x8 (i 2) := by
  rw [val_main_v24_apply, val_main_v23_apply, branch_at, gate_at, affineS_at]
  rfl

/-- The mean of a row of the block: the host's sum starts from the float zero. -/
theorem mean_at (j : S4x4096x1.Idx) :
    val_main_v28 (F := Ideal) x0 x1 x2 x3 x4 x5 x6 x7 x8 j
      = rowMean (gated (row x0 (j 0) (j 1)) x1 x2 x3 x4 x5 x6 x7 x8) := by
  rw [val_main_v28_apply, val_main_v26_apply, val_main_v27_apply, val_main_cst_2_apply, val_main_v25_apply,
    val_main_cst_1_apply]
  have hs : ∑ k : Fin 1024, val_main_v24 (F := Ideal) x0 x1 x2 x3 x4 x5 x6 x7 x8 (idx_main_v25 (idx_main_v26 j) k)
      = ∑ k : Fin 1024, gated (row x0 (j 0) (j 1)) x1 x2 x3 x4 x5 x6 x7 x8 k :=
    Finset.sum_congr rfl fun k _ => (gated_at x0 x1 x3 x5 x7 x2 x4 x6 x8 _).trans rfl
  rw [hs]
  exact congrArg (Ideal.div · lenLit) (zeroLit_add _)

/-- The centred block, as the variance's operand reads it … -/
theorem centred_at (i : S4x4096x1024.Idx) :
    val_main_v30 (F := Ideal) x0 x1 x2 x3 x4 x5 x6 x7 x8 i
      = centred (gated (row x0 (i 0) (i 1)) x1 x2 x3 x4 x5 x6 x7 x8) (i 2) := by
  rw [val_main_v30_apply, gated_at, val_main_v29_apply, mean_at]
  rfl

/-- … and as the result reads it. -/
theorem centred_at' (i : S4x4096x1024.Idx) :
    val_main_v37 (F := Ideal) x0 x1 x2 x3 x4 x5 x6 x7 x8 i
      = centred (gated (row x0 (i 0) (i 1)) x1 x2 x3 x4 x5 x6 x7 x8) (i 2) := by
  rw [val_main_v37_apply, gated_at, val_main_v36_apply, mean_at]
  rfl

/-- The variance of a row of the block: the mean of the squared centred row. -/
theorem var_at (j : S4x4096x1.Idx) :
    val_main_v35 (F := Ideal) x0 x1 x2 x3 x4 x5 x6 x7 x8 j
      = rowMean (fun k => centred (gated (row x0 (j 0) (j 1)) x1 x2 x3 x4 x5 x6 x7 x8) k
          * centred (gated (row x0 (j 0) (j 1)) x1 x2 x3 x4 x5 x6 x7 x8) k) := by
  rw [val_main_v35_apply, val_main_v33_apply, val_main_v34_apply, val_main_cst_4_apply, val_main_v32_apply,
    val_main_cst_3_apply]
  have hs : ∑ k : Fin 1024, val_main_v31 (F := Ideal) x0 x1 x2 x3 x4 x5 x6 x7 x8 (idx_main_v32 (idx_main_v33 j) k)
      = ∑ k : Fin 1024, centred (gated (row x0 (j 0) (j 1)) x1 x2 x3 x4 x5 x6 x7 x8) k
          * centred (gated (row x0 (j 0) (j 1)) x1 x2 x3 x4 x5 x6 x7 x8) k :=
    Finset.sum_congr rfl fun k _ => by
      rw [val_main_v31_apply, centred_at]; rfl
  rw [hs]
  exact congrArg (Ideal.div · lenLit) (zeroLit_add _)

/-- The normalising factor of a row. -/
theorem scale_at (j : S4x4096x1.Idx) :
    val_main_v40 (F := Ideal) x0 x1 x2 x3 x4 x5 x6 x7 x8 j
      = Ideal.rsqrt (rowMean (fun k => centred (gated (row x0 (j 0) (j 1)) x1 x2 x3 x4 x5 x6 x7 x8) k
          * centred (gated (row x0 (j 0) (j 1)) x1 x2 x3 x4 x5 x6 x7 x8) k) + epsLit) := by
  rw [val_main_v40_apply, val_main_v39_apply, var_at, val_main_v38_apply, val_main_cst_5_apply]
  rfl

/-- The last stage is the whole block on the row. -/
theorem out_at (i : S4x4096x1024.Idx) :
    val_main_v48 (F := Ideal) x0 x1 x2 x3 x4 x5 x6 x7 x8 x9 x10 i
      = rowOut (row x0 (i 0) (i 1)) x1 x2 x3 x4 x5 x6 x7 x8 x9 x10 (i 2) := by
  rw [val_main_v48_apply, val_main_v45_apply, val_main_v42_apply, centred_at', val_main_v41_apply, scale_at,
    val_main_v44_apply, val_main_v43_apply, bidx44, val_main_v47_apply, val_main_v46_apply, bidx47]
  rfl

end Stages

/-- The reference's result at `(b, s, q)` is row `(b, s)` of the input sent through the whole gated block and
    the normalisation, read at `q`. -/
theorem ref_at (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 x9 x10 : (⟨S1024, .f32⟩ : BufTy).Contents (Elt Ideal)) (i : S4x4096x1024.Idx) :
    val_main_v48 (F := Ideal) x0 x1 x2 x3 x4 x5 x6 x7 x8 x9 x10 i
      = rowOut (fun k => x0 (ix3 (i 0) (i 1) k)) x1 x2 x3 x4 x5 x6 x7 x8 x9 x10 (i 2) :=
  out_at x0 x1 x3 x5 x7 x2 x4 x6 x8 x9 x10 i

end Cert.Grn.RefRow

end
-- ==== Proof.lean ====
/-
  The kernel is a gated residual block followed by a layer normalisation, applied to each of the 4 × 4096 rows of
  the input: four affine maps of the row (one clipped at zero and fed to a second, one through the logistic
  function as a gate, one as a skip connection), then the row is centred, scaled by the inverse square root of its
  variance plus ε, and multiplied and shifted by per-column parameters. The kernel does this on 64 blocks of 256
  flattened rows; the reference on the whole array at once. Over the extended reals both are the same tree of
  exact operations on each row (Proof/Spec.lean): the kernel's entry at `(p, q)` of a block (Proof/KernelRow.lean),
  its whole result array (Proof/KernelValue.lean), and the reference's entry at `(b, s, q)` (Proof/RefRow.lean)
  are all the one row function, so the results agree index by index with no algebraic law in between. The three
  frame claims are the programs' runs with the result dropped; the idealisation rewrote nothing.
-/
import proofs.«130909_j67027259621479_1_alg».proof.Defs
import proofs.«130909_j67027259621479_1_alg».proof.Proof.Gen.Kernel
import proofs.«130909_j67027259621479_1_alg».proof.Proof.Gen.Kernel.Skeleton
import proofs.«130909_j67027259621479_1_alg».proof.Proof.Gen.Kernel.Launch
import proofs.«130909_j67027259621479_1_alg».proof.Proof.Gen.Kernel.Points
import proofs.«130909_j67027259621479_1_alg».proof.Proof.Gen.Kernel.Frame
import proofs.«130909_j67027259621479_1_alg».proof.Proof.Gen.KernelIdeal
import proofs.«130909_j67027259621479_1_alg».proof.Proof.Gen.KernelIdeal.Skeleton
import proofs.«130909_j67027259621479_1_alg».proof.Proof.Gen.KernelIdeal.Launch
import proofs.«130909_j67027259621479_1_alg».proof.Proof.Gen.KernelIdeal.Points
import proofs.«130909_j67027259621479_1_alg».proof.Proof.Gen.KernelIdeal.Frame
import proofs.«130909_j67027259621479_1_alg».proof.Proof.Gen.ReferenceIdeal
import proofs.«130909_j67027259621479_1_alg».proof.Proof.Gen.ReferenceIdeal.Run
import proofs.«130909_j67027259621479_1_alg».proof.Proof.Gen.ReferenceIdeal.Read
import proofs.«130909_j67027259621479_1_alg».proof.Proof.Gen.Pre_finite_inputs
import proofs.«130909_j67027259621479_1_alg».proof.Proof.KernelValue
import proofs.«130909_j67027259621479_1_alg».proof.Proof.RefRow
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel program over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two programs, from memories that agree on the arguments, end with the same result: at every index
    `(b, s, q)` both hold the row function of row `(b, s)` of the input, at `q`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Grn.KernelValue.G3 m c, Cert.Grn.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v48_eq, h0, h1, h2, h3, h4, h5, h6, h7, h8, h9, h10]
  funext i
  exact Cert.Grn.RefRow.ref_at _ _ _ _ _ _ _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
